-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S256x64 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S800000x64 .f32) (main_arg2 : IVec S800000 32) (main_arg3 : IVec S800000 32) (main_arg4 : FVec F S128x256 .f32) (main_arg5 : FVec F S256 .f32) (main_arg6 : FVec F S256x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩
abbrev S800000x1 : Shape := ⟨2, ![800000, 1]⟩
abbrev S64x256 : Shape := ⟨2, ![64, 256]⟩
abbrev S1x256 : Shape := ⟨2, ![1, 256]⟩
abbrev S1x64 : Shape := ⟨2, ![1, 64]⟩
abbrev S5000x64 : Shape := ⟨2, ![5000, 64]⟩
abbrev S5000x256 : Shape := ⟨2, ![5000, 256]⟩

abbrev nBuf : Space → Nat
  | .hbm => 22
  | .vmem => 11
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S128x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S_, .f32⟩
  | .hbm, ⟨9, _⟩ => ⟨S50000x64, .f32⟩
  | .hbm, ⟨10, _⟩ => ⟨S800000x1, .i32⟩
  | .hbm, ⟨11, _⟩ => ⟨S50000x64, .f32⟩
  | .hbm, ⟨12, _⟩ => ⟨S_, .f32⟩
  | .hbm, ⟨13, _⟩ => ⟨S50000x64, .f32⟩
  | .hbm, ⟨14, _⟩ => ⟨S800000x1, .i32⟩
  | .hbm, ⟨15, _⟩ => ⟨S50000x64, .f32⟩
  | .hbm, ⟨16, _⟩ => ⟨S50000x64, .f32⟩
  | .hbm, ⟨17, _⟩ => ⟨S64x256, .f32⟩
  | .hbm, ⟨18, _⟩ => ⟨S64x256, .f32⟩
  | .hbm, ⟨19, _⟩ => ⟨S1x256, .f32⟩
  | .hbm, ⟨20, _⟩ => ⟨S1x64, .f32⟩
  | .hbm, ⟨21, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x256, .f32⟩
  | .local _ .vmem, ⟨5, _⟩ => ⟨S64x256, .f32⟩
  | .local _ .vmem, ⟨6, _⟩ => ⟨S1x256, .f32⟩
  | .local _ .vmem, ⟨7, _⟩ => ⟨S256x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  slices_S128x256_S64x256_0_0 : S128x256.Slices ![0, 0] S64x256
  slices_S128x256_S64x256_64_0 : S128x256.Slices ![64, 0] S64x256
  shapeCasts_S256_S1x256 : S256.ShapeCasts S1x256
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000x64_S800000x1_S800000x64_1_0_0_1_wf : ScatterDims.WF S50000x64 S800000x1 S800000x64 [1] [0] [0] 1
  dot_S5000x64_S64x256_S5000x256_1_0_0_1_n_n_wf : DotDims.WF S5000x64 S64x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v6) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩
abbrev S800000x1 : Shape := ⟨2, ![800000, 1]⟩
abbrev S50000x128 : Shape := ⟨2, ![50000, 128]⟩
abbrev S50000x256 : Shape := ⟨2, ![50000, 256]⟩
abbrev S1x256 : Shape := ⟨2, ![1, 256]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S128x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S_, .f32⟩
  | .hbm, ⟨9, _⟩ => ⟨S50000x64, .f32⟩
  | .hbm, ⟨10, _⟩ => ⟨S800000x1, .i32⟩
  | .hbm, ⟨11, _⟩ => ⟨S50000x64, .f32⟩
  | .hbm, ⟨12, _⟩ => ⟨S_, .f32⟩
  | .hbm, ⟨13, _⟩ => ⟨S50000x64, .f32⟩
  | .hbm, ⟨14, _⟩ => ⟨S800000x1, .i32⟩
  | .hbm, ⟨15, _⟩ => ⟨S50000x64, .f32⟩
  | .hbm, ⟨16, _⟩ => ⟨S50000x64, .f32⟩
  | .hbm, ⟨17, _⟩ => ⟨S50000x128, .f32⟩
  | .hbm, ⟨18, _⟩ => ⟨S50000x256, .f32⟩
  | .hbm, ⟨19, _⟩ => ⟨S1x256, .f32⟩
  | .hbm, ⟨20, _⟩ => ⟨S50000x256, .f32⟩
  | .hbm, ⟨21, _⟩ => ⟨S50000x256, .f32⟩
  | .hbm, ⟨22, _⟩ => ⟨S_, .f32⟩
  | .hbm, ⟨23, _⟩ => ⟨S50000x256, .f32⟩
  | .hbm, ⟨24, _⟩ => ⟨S50000x256, .f32⟩
  | .hbm, ⟨25, _⟩ => ⟨S50000x64, .f32⟩
  | .hbm, ⟨26, _⟩ => ⟨S1x64, .f32⟩
  | .hbm, ⟨27, _⟩ => ⟨S50000x64, .f32⟩
  | .hbm, ⟨28, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  concatenates_S50000x64_S50000x64_S50000x128_d1 : Shape.Concatenates [S50000x64, S50000x64] S50000x128 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000x64_S800000x1_S800000x64_1_0_0_1_wf : ScatterDims.WF S50000x64 S800000x1 S800000x64 [1] [0] [0] 1
  dot_S50000x128_S128x256_S50000x256_1_0_0_1_n_n_wf : DotDims.WF S50000x128 S128x256 S50000x256 [1] [0] [0] [1] [] []
  dot_S50000x256_S256x64_S50000x64_1_0_0_1_n_n_wf : DotDims.WF S50000x256 S256x64 S50000x64 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.NodeUpdate.lean ====
/-
  One node's update in a message-passing layer, as a function of real (extended-real) numbers.

  A node carries a row `a` of 64 aggregated edge features and a row `n` of 64 of its own features. The layer joins the
  two rows into one row of 128 entries, multiplies it by a 128 × 256 weight matrix, adds a bias, clips at zero from
  below, multiplies by a 256 × 64 matrix and adds a second bias:

      hidden k  = max (∑ q < 128, (a ‖ n) q · W1 (q, k) + b1 k, 0)
      updated j = ∑ k < 256, hidden k · W2 (k, j) + b2 j.

  The joined row's product with W1 is the sum of the two rows' products with the upper and the lower 64 rows of W1,

      ∑ q < 128, (a ‖ n) q · W1 (q, k) = ∑ q < 64, a q · W1 (q, k) + ∑ q < 64, n q · W1 (64 + q, k),

  because a finite sum over 128 positions is the sum over the first 64 plus the sum over the last 64 (`sum_halves`). Only
  the associativity and commutativity of the extended reals' addition are used, so nothing has to be finite.
-/
import Idealize.ShloMosaic.PureOps.Ideal.Laws
import Idealize.ShloMosaic.Lib.ValueIdx

noncomputable section

open scoped BigOperators

namespace Cert.NodeUpdate

open Idealize.ShloMosaic Idealize.ShloMosaic.ValueIdx

/-! ## The two halves of 128 positions -/

/-- Position `q` of the upper half. -/
def top (q : Fin 64) : Fin 128 := ⟨q.val, by omega⟩
/-- Position `q` of the lower half, 64 further on. -/
def bot (q : Fin 64) : Fin 128 := ⟨64 + q.val, by omega⟩

theorem top_val (q : Fin 64) : (top q).val = q.val := rfl
theorem bot_val (q : Fin 64) : (bot q).val = 64 + q.val := rfl

/-- A sum over 128 positions is the sum over the upper 64 plus the sum over the lower 64. -/
theorem sum_halves {M : Type*} [AddCommMonoid M] (c : Fin 128 → M) :
    ∑ q : Fin 128, c q = ∑ q : Fin 64, c (top q) + ∑ q : Fin 64, c (bot q) :=
  Fin.sum_univ_add (a := 64) (b := 64) c

/-! ## One node -/

/-- Hidden unit `k` of a node with aggregated row `a` and own row `n`: the two rows against the upper and lower halves
    `Wt`, `Wb` of the first weight matrix, the bias added, clipped at zero. -/
def hidden (a n : Fin 64 → EReal) (Wt Wb : Fin 64 → Fin 256 → EReal) (b1 : Fin 256 → EReal) (k : Fin 256) : EReal :=
  max ((∑ q : Fin 64, a q * Wt q k + ∑ q : Fin 64, n q * Wb q k) + b1 k) 0

/-- Output feature `j` of that node: the hidden row against the second weight matrix, the second bias added. -/
def updated (a n : Fin 64 → EReal) (Wt Wb : Fin 64 → Fin 256 → EReal) (b1 : Fin 256 → EReal)
    (W2 : Fin 256 → Fin 64 → EReal) (b2 : Fin 64 → EReal) (j : Fin 64) : EReal :=
  (∑ k : Fin 256, hidden a n Wt Wb b1 k * W2 k j) + b2 j

/-! ## All nodes -/

/-- Row `r`, feature `j` of the layer's result over `R` nodes whose aggregated and own features are the rows of `agg` and
    `nodes`. -/
def rowUpdated {R : Nat} (agg nodes : (⟨2, ![R, 64]⟩ : Shape).Idx → EReal) (Wt Wb : Fin 64 → Fin 256 → EReal)
    (b1 : Fin 256 → EReal) (W2 : Fin 256 → Fin 64 → EReal) (b2 : Fin 64 → EReal) (r : Fin R) (j : Fin 64) : EReal :=
  updated (fun q => agg (ix2 r q)) (fun q => nodes (ix2 r q)) Wt Wb b1 W2 b2 j

/-- The layer's result for 50000 nodes, as an array indexed by (node, feature). -/
def layer (agg nodes : (⟨2, ![50000, 64]⟩ : Shape).Idx → EReal) (Wt Wb : Fin 64 → Fin 256 → EReal)
    (b1 : Fin 256 → EReal) (W2 : Fin 256 → Fin 64 → EReal) (b2 : Fin 64 → EReal) :
    (⟨2, ![50000, 64]⟩ : Shape).Idx → EReal :=
  fun i => rowUpdated (R := 50000) agg nodes Wt Wb b1 W2 b2 (i 0) (i 1)

theorem layer_apply (agg nodes : (⟨2, ![50000, 64]⟩ : Shape).Idx → EReal) (Wt Wb : Fin 64 → Fin 256 → EReal)
    (b1 : Fin 256 → EReal) (W2 : Fin 256 → Fin 64 → EReal) (b2 : Fin 64 → EReal) (r : Fin 50000) (j : Fin 64) :
    layer agg nodes Wt Wb b1 W2 b2 (ix2 r j) = rowUpdated (R := 50000) agg nodes Wt Wb b1 W2 b2 r j := rfl

end Cert.NodeUpdate
-- ==== Proof.KernelRow.lean ====
/-
  What the kernel's body computes for one node of a block, at the exact (extended-real) values.

  The body works on a block of 5000 nodes: their aggregated rows `x0`, their own rows `x1`, the upper and lower halves
  `x2`, `x3` of the first weight matrix, the first bias as one row `x4`, the second weight matrix `x5` and the second
  bias as one row `x6`. A change of number format is the identity on exact values, a reshape to the same shape is the
  identity, and a product accumulated into an all-zero array is the plain matrix product; the one-row biases are
  repeated down the rows. So the entry the body stores at (node p of the block, feature j) is `updated` of row p of
  `x0` and of `x1`: the hidden row is the sum of the two half products plus the bias, clipped at zero, and the output
  is its product with `x5` plus the second bias.
-/
import proofs.«177618_j65249143161008_1_alg».proof.Proof.Gen.KernelIdeal.Skeleton
import proofs.«177618_j65249143161008_1_alg».proof.Proof.LibDotPlain
import proofs.«177618_j65249143161008_1_alg».proof.Proof.NodeUpdate
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.NodeUpdate

/-- The first bias, one row of 256 entries, repeated down 5000 rows: entry (p, k) is the row's entry k. -/
theorem bias_row256 (v : FVec Ideal S1x256 .f32) (p : Fin 5000) (k : Fin 256) :
    broadcastTo S5000x256 v broadcasts_S1x256_S5000x256 (ix2 p k) = v (ix2 0 k) :=
  broadcastTo_apply v broadcasts_S1x256_S5000x256 (ix2 p k) (ix2 0 k) (fun a => by
    match a with
    | ⟨0, _⟩ => show (0 : Nat) = if (1 : Nat) = 1 then 0 else p.val; rw [if_pos rfl]
    | ⟨1, _⟩ => show k.val = if (256 : Nat) = 1 then 0 else k.val; rw [if_neg (by decide)])

/-- The second bias, one row of 64 entries, repeated down 5000 rows: entry (p, j) is the row's entry j. -/
theorem bias_row64 (v : FVec Ideal S1x64 .f32) (p : Fin 5000) (j : Fin 64) :
    broadcastTo S5000x64 v broadcasts_S1x64_S5000x64 (ix2 p j) = v (ix2 0 j) :=
  broadcastTo_apply v broadcasts_S1x64_S5000x64 (ix2 p j) (ix2 0 j) (fun a => by
    match a with
    | ⟨0, _⟩ => show (0 : Nat) = if (1 : Nat) = 1 then 0 else p.val; rw [if_pos rfl]
    | ⟨1, _⟩ => show j.val = if (64 : Nat) = 1 then 0 else j.val; rw [if_neg (by decide)])

/-- A 5000 × 64 by 64 × 256 product into the zero array, at entry (p, k): the sum over q of a (p, q) · w (q, k). -/
theorem first_product (a : FVec Ideal S5000x64 .bf16) (w : FVec Ideal S64x256 .bf16) (p : Fin 5000) (k : Fin 256) :
    matmul dot_S5000x64_S64x256_S5000x256_1_0_0_1_n_n none a w (constant (F := Ideal) S5000x256 .f32 0x00000000#32) (ix2 p k)
      = ∑ q : Fin 64, a (ix2 p q) * w (ix2 q k) :=
  Cert.LibDotPlain.matmul_zero_plain 5000 64 256 none a w p k

/-- A 5000 × 256 by 256 × 64 product into the zero array, at entry (p, j): the sum over k of h (p, k) · w (k, j). -/
theorem second_product (h : FVec Ideal S5000x256 .bf16) (w : FVec Ideal S256x64 .bf16) (p : Fin 5000) (j : Fin 64) :
    matmul dot_S5000x256_S256x64_S5000x64_1_0_0_1_n_n none h w (constant (F := Ideal) S5000x64 .f32 0x00000000#32) (ix2 p j)
      = ∑ k : Fin 256, h (ix2 p k) * w (ix2 k j) :=
  Cert.LibDotPlain.matmul_zero_plain 5000 256 64 none h w p j

/-- The hidden layer of the block at (p, k): the two half products added, the bias row added, the maximum with the
    zero splat — `hidden` of row p of the two operands. -/
theorem hidden_apply (a n : FVec Ideal S5000x64 .bf16) (wt wb : FVec Ideal S64x256 .bf16) (b : FVec Ideal S1x256 .f32)
    (p : Fin 5000) (k : Fin 256) :
    maximumf
        (addf
          (addf (matmul dot_S5000x64_S64x256_S5000x256_1_0_0_1_n_n none a wt (constant (F := Ideal) S5000x256 .f32 0x00000000#32))
            (matmul dot_S5000x64_S64x256_S5000x256_1_0_0_1_n_n none n wb (constant (F := Ideal) S5000x256 .f32 0x00000000#32)))
          (broadcastTo S5000x256 b broadcasts_S1x256_S5000x256))
        (broadcast S5000x256 (Scalar.ofBits (F := Ideal) .f32 0x00000000#32)) (ix2 p k)
      = hidden (fun q => a (ix2 p q)) (fun q => n (ix2 p q)) (fun q k => wt (ix2 q k)) (fun q k => wb (ix2 q k))
          (fun k => b (ix2 0 k)) k := by
  show max ((matmul dot_S5000x64_S64x256_S5000x256_1_0_0_1_n_n none a wt (constant (F := Ideal) S5000x256 .f32 0x00000000#32) (ix2 p k)
        + matmul dot_S5000x64_S64x256_S5000x256_1_0_0_1_n_n none n wb (constant (F := Ideal) S5000x256 .f32 0x00000000#32) (ix2 p k))
        + broadcastTo S5000x256 b broadcasts_S1x256_S5000x256 (ix2 p k)) (Ideal.ofBits .f32 0x00000000#32) = _
  rw [first_product, first_product, bias_row256, Ideal.ofBits_zero_f32]
  rfl

/-- The output layer of the block at (p, j): the product with the second weight matrix plus the second bias row. -/
theorem output_apply (h : FVec Ideal S5000x256 .bf16) (w2 : FVec Ideal S256x64 .bf16) (b : FVec Ideal S1x64 .f32)
    (p : Fin 5000) (j : Fin 64) :
    addf (matmul dot_S5000x256_S256x64_S5000x64_1_0_0_1_n_n none h w2 (constant (F := Ideal) S5000x64 .f32 0x00000000#32))
        (broadcastTo S5000x64 b broadcasts_S1x64_S5000x64) (ix2 p j)
      = (∑ k : Fin 256, h (ix2 p k) * w2 (ix2 k j)) + b (ix2 0 j) := by
  show matmul dot_S5000x256_S256x64_S5000x64_1_0_0_1_n_n none h w2 (constant (F := Ideal) S5000x64 .f32 0x00000000#32) (ix2 p j)
      + broadcastTo S5000x64 b broadcasts_S1x64_S5000x64 (ix2 p j) = _
  rw [second_product, bias_row64]

/-- THE BODY'S STORED VALUE at (node p of the block, feature j) is `updated` of row p of the loaded blocks. -/
theorem stored_apply (x0 x1 : Vec Ideal S5000x64 .f32) (x2 x3 : Vec Ideal S64x256 .f32) (x4 : Vec Ideal S1x256 .f32)
    (x5 : Vec Ideal S256x64 .f32) (x6 : Vec Ideal S1x64 .f32) (p : Fin 5000) (j : Fin 64) :
    k0_pay1 (F := Ideal) x0 x1 x2 x3 x4 x5 x6 (ix2 p j)
      = updated (fun q => x0 (ix2 p q)) (fun q => x1 (ix2 p q)) (fun q k => x2 (ix2 q k)) (fun q k => x3 (ix2 q k))
          (fun k => x4 (ix2 0 k)) (fun k j => x5 (ix2 k j)) (fun j => x6 (ix2 0 j)) j := by
  unfold k0_pay1
  simp only [shapeCast_self]
  refine (output_apply _ _ _ p j).trans ?_
  unfold updated
  refine congrArg₂ (· + ·) (Finset.sum_congr rfl fun k _ => congrArg₂ (· * ·) ?_ rfl) rfl
  exact hidden_apply _ _ _ _ _ p k

end Cert.KernelIdeal.Body
-- ==== Proof.KernelValue.lean ====
/-
  The kernel's result array is the layer of the arrays its launch reads.

  The launch walks 10 grid points. At point t it reads rows 5000 t … 5000 t + 4999 of the aggregated array and of the node
  array, and the whole of the five small arrays (the two halves of the first weight matrix, the two bias rows, the
  second weight matrix), and writes rows 5000 t … 5000 t + 4999 of the result. The body's stored entry for node p of
  the block is `updated` of row p of the two blocks, which are rows 5000 t + p of the two arrays: so the block point t
  writes back is the same rows of `layer` of those arrays. Every row r of the result lies in the block of point
  r / 5000, so the ten blocks cover the array, and after the run the whole array is that `layer`.
-/
import proofs.«177618_j65249143161008_1_alg».proof.Proof.Gen.KernelIdeal.Value
import proofs.«177618_j65249143161008_1_alg».proof.Proof.KernelRow
import Idealize.ShloMosaic.Lib.Pipeline.Value
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Value Idealize.ShloMosaic.ValueIdx Cert.NodeUpdate

variable (m : (ℓ : Loc nD τ sig) → Buf (Elt Ideal) ℓ) (ρ : Dev nD → PrngReg)

theorem hz : (![0, 0] : Fin 2 → Nat) = fun _ => 0 := funext fun a => by fin_cases a <;> rfl

/-! ## Which block each window reads at a point -/

/-- Over the 10 grid points: the two row-blocked inputs and the output are at block (t, 0); the five small arrays are
    always at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Every row block of the result is some point's. -/
theorem idx_onto : ∀ q0 : Fin 10, ∃ t : Fin cfg0.N, win0_7.index t = ![q0.val, 0] :=
  (by decide +kernel : ∀ q0 : Fin 10, ∃ t : Fin grid0.N, win0_7.index t = ![q0.val, 0])

/-! ## The arrays the launch reads, and its blocks of them -/

/-- The aggregated array as the launch finds it. -/
abbrev aggArr (c : Dev nD) : Vec Ideal S50000x64 .f32 := V m c main_v6
/-- The node array. -/
abbrev nodeArr (c : Dev nD) : Vec Ideal S50000x64 .f32 := V m c main_arg0
/-- The upper half of the first weight matrix. -/
abbrev wtArr (c : Dev nD) : Vec Ideal S64x256 .f32 := V m c main_v7
/-- The lower half of the first weight matrix. -/
abbrev wbArr (c : Dev nD) : Vec Ideal S64x256 .f32 := V m c main_v8
/-- The first bias as one row. -/
abbrev b1Arr (c : Dev nD) : Vec Ideal S1x256 .f32 := V m c main_v9
/-- The second weight matrix. -/
abbrev w2Arr (c : Dev nD) : Vec Ideal S256x64 .f32 := V m c main_arg6
/-- The second bias as one row. -/
abbrev b2Arr (c : Dev nD) : Vec Ideal S1x64 .f32 := V m c main_v10

/-- Point t's block of the aggregated array is its rows 5000 t …. -/
theorem read0 (c : Dev nD) (t : Fin cfg0.N) (y : S5000x64.Idx) (i : S50000x64.Idx)
    (h0 : (i 0).val = t.val * 5000 + (y 0).val) (h1 : (i 1).val = (y 1).val) :
    (iblk m c 0 t : Vec Ideal S5000x64 .f32) y = aggArr m c i := by
  obtain ⟨e0, e1, -⟩ := idx_facts t
  unfold iblk
  rw [View.read_apply]
  refine (cast_eq _ _).trans ?_
  refine congrArg (V m c main_v6) (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 64 + 1 * (y 1).val = (i 1).val; rw [e1, h1]; omega

/-- Point t's block of the node array is its rows 5000 t …. -/
theorem read1 (c : Dev nD) (t : Fin cfg0.N) (y : S5000x64.Idx) (i : S50000x64.Idx)
    (h0 : (i 0).val = t.val * 5000 + (y 0).val) (h1 : (i 1).val = (y 1).val) :
    (iblk m c 1 t : Vec Ideal S5000x64 .f32) y = nodeArr m c i := by
  obtain ⟨-, -, e0, e1, -⟩ := idx_facts t
  unfold iblk
  rw [View.read_apply]
  refine (cast_eq _ _).trans ?_
  refine congrArg (V m c main_arg0) (funext fun a => Fin.ext ?_)
  match a with
  | ⟨0, _⟩ => show win0_1.index t (0 : Fin 2) * 5000 + 1 * (y 0).val = (i 0).val; rw [e0, h0]; omega
  | ⟨1, _⟩ => show win0_1.index t (1 : Fin 2) * 64 + 1 * (y 1).val = (i 1).val; rw [e1, h1]; omega

/-- Each small array's one block is the whole array. -/
theorem read2 (c : Dev nD) (t : Fin cfg0.N) : (iblk m c 2 t : Vec Ideal S64x256 .f32) = wtArr m c := by
  obtain ⟨-, -, -, -, e0, e1, -⟩ := idx_facts t
  funext y
  unfold iblk
  rw [View.read_apply]
  refine (cast_eq _ _).trans ?_
  refine congrArg (V m c main_v7) (funext fun a => Fin.ext ?_)
  match a with
  | ⟨0, _⟩ => show win0_2.index t (0 : Fin 2) * 64 + 1 * (y 0).val = (y 0).val; rw [e0]; omega
  | ⟨1, _⟩ => show win0_2.index t (1 : Fin 2) * 256 + 1 * (y 1).val = (y 1).val; rw [e1]; omega

theorem read3 (c : Dev nD) (t : Fin cfg0.N) : (iblk m c 3 t : Vec Ideal S64x256 .f32) = wbArr m c := by
  obtain ⟨-, -, -, -, -, -, e0, e1, -⟩ := idx_facts t
  funext y
  unfold iblk
  rw [View.read_apply]
  refine (cast_eq _ _).trans ?_
  refine congrArg (V m c main_v8) (funext fun a => Fin.ext ?_)
  match a with
  | ⟨0, _⟩ => show win0_3.index t (0 : Fin 2) * 64 + 1 * (y 0).val = (y 0).val; rw [e0]; omega
  | ⟨1, _⟩ => show win0_3.index t (1 : Fin 2) * 256 + 1 * (y 1).val = (y 1).val; rw [e1]; omega

theorem read4 (c : Dev nD) (t : Fin cfg0.N) : (iblk m c 4 t : Vec Ideal S1x256 .f32) = b1Arr m c := by
  obtain ⟨-, -, -, -, -, -, -, -, e0, e1, -⟩ := idx_facts t
  funext y
  unfold iblk
  rw [View.read_apply]
  refine (cast_eq _ _).trans ?_
  refine congrArg (V m c main_v9) (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

theorem read5 (c : Dev nD) (t : Fin cfg0.N) : (iblk m c 5 t : Vec Ideal S256x64 .f32) = w2Arr m c := by
  obtain ⟨-, -, -, -, -, -, -, -, -, -, e0, e1, -⟩ := idx_facts t
  funext y
  unfold iblk
  rw [View.read_apply]
  refine (cast_eq _ _).trans ?_
  refine congrArg (V m c main_arg6) (funext fun a => Fin.ext ?_)
  match a with
  | ⟨0, _⟩ => show win0_5.index t (0 : Fin 2) * 256 + 1 * (y 0).val = (y 0).val; rw [e0]; omega
  | ⟨1, _⟩ => show win0_5.index t (1 : Fin 2) * 64 + 1 * (y 1).val = (y 1).val; rw [e1]; omega

theorem read6 (c : Dev nD) (t : Fin cfg0.N) : (iblk m c 6 t : Vec Ideal S1x64 .f32) = b2Arr m c := by
  obtain ⟨-, -, -, -, -, -, -, -, -, -, -, -, e0, e1, -⟩ := idx_facts t
  funext y
  unfold iblk
  rw [View.read_apply]
  refine (cast_eq _ _).trans ?_
  refine congrArg (V m c main_v10) (funext fun a => Fin.ext ?_)
  match a with
  | ⟨0, _⟩ => show win0_6.index t (0 : Fin 2) * 1 + 1 * (y 0).val = (y 0).val; rw [e0]; omega
  | ⟨1, _⟩ => show win0_6.index t (1 : Fin 2) * 64 + 1 * (y 1).val = (y 1).val; rw [e1]; omega

/-! ## One point's stored block is the same rows of the layer -/

/-- For blocks `x0`, `x1` that are rows 5000 T … of the arrays `agg`, `nodes`, the body's stored entry at a block index
    is the layer's entry at the array index 5000 T rows further down. -/
theorem stored_eq_layer (agg nodes : Vec Ideal S50000x64 .f32) (wt wb : Vec Ideal S64x256 .f32) (b1 : Vec Ideal S1x256 .f32)
    (w2 : Vec Ideal S256x64 .f32) (b2 : Vec Ideal S1x64 .f32)
    (x0 x1 : Vec Ideal S5000x64 .f32) (x2 x3 : Vec Ideal S64x256 .f32) (x4 : Vec Ideal S1x256 .f32)
    (x5 : Vec Ideal S256x64 .f32) (x6 : Vec Ideal S1x64 .f32) (T : Nat)
    (h0 : ∀ (y : S5000x64.Idx) (i : S50000x64.Idx), (i 0).val = T * 5000 + (y 0).val → (i 1).val = (y 1).val → x0 y = agg i)
    (h1 : ∀ (y : S5000x64.Idx) (i : S50000x64.Idx), (i 0).val = T * 5000 + (y 0).val → (i 1).val = (y 1).val → x1 y = nodes i)
    (h2 : x2 = wt) (h3 : x3 = wb) (h4 : x4 = b1) (h5 : x5 = w2) (h6 : x6 = b2)
    (y : S5000x64.Idx) (i : S50000x64.Idx) (hi0 : (i 0).val = T * 5000 + (y 0).val) (hi1 : (i 1).val = (y 1).val) :
    k0_pay1 (F := Ideal) x0 x1 x2 x3 x4 x5 x6 y
      = layer agg nodes (fun q k => wt (ix2 q k)) (fun q k => wb (ix2 q k)) (fun k => b1 (ix2 0 k))
          (fun k j => w2 (ix2 k j)) (fun j => b2 (ix2 0 j)) i := by
  subst h2 h3 h4 h5 h6
  obtain ⟨p, j, rfl⟩ : ∃ (p : Fin 5000) (j : Fin 64), y = ix2 p j := ⟨y 0, y 1, eq_ix2 y⟩
  obtain ⟨r, j', rfl⟩ : ∃ (r : Fin 50000) (j' : Fin 64), i = ix2 r j' := ⟨i 0, i 1, eq_ix2 i⟩
  obtain rfl : j' = j := Fin.ext hi1
  rw [Body.stored_apply, layer_apply]
  unfold rowUpdated
  have ea : (fun q : Fin 64 => x0 (ix2 p q)) = fun q => agg (ix2 r q) :=
    funext fun q => h0 (ix2 p q) (ix2 r q) hi0 rfl
  have en : (fun q : Fin 64 => x1 (ix2 p q)) = fun q => nodes (ix2 r q) :=
    funext fun q => h1 (ix2 p q) (ix2 r q) hi0 rfl
  rw [ea, en]

/-- The layer of the arrays the launch reads. -/
def result (c : Dev nD) : Vec Ideal S50000x64 .f32 :=
  layer (aggArr m c) (nodeArr m c) (fun q k => wtArr m c (ix2 q k)) (fun q k => wbArr m c (ix2 q k))
    (fun k => b1Arr m c (ix2 0 k)) (fun k j => w2Arr m c (ix2 k j)) (fun j => b2Arr m c (ix2 0 j))

/-- WHAT POINT t WRITES BACK is block t of `result`. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S5000x64) hz, View.ld_unit_zero (S := S64x256) hz, View.ld_unit_zero (S := S1x256) hz,
    View.ld_unit_zero (S := S256x64) hz, View.ld_unit_zero (S := S1x64) hz]
  obtain ⟨-, -, -, -, -, -, -, -, -, -, -, -, -, -, e0, e1⟩ := idx_facts t
  funext y
  rw [View.read_apply]
  refine Eq.trans ?_ (cast_eq _ _).symm
  unfold result
  refine stored_eq_layer (aggArr m c) (nodeArr m c) (wtArr m c) (wbArr m c) (b1Arr m c) (w2Arr m c) (b2Arr m c)
    (iblk m c 0 t) (iblk m c 1 t) (iblk m c 2 t) (iblk m c 3 t) (iblk m c 4 t) (iblk m c 5 t) (iblk m c 6 t) t.val
    (read0 m c t) (read1 m c t) (read2 m c t) (read3 m c t) (read4 m c t) (read5 m c t) (read6 m c t)
    ((cfg0.win 7).xinj (grid0.coords t) y) (((cfg0.win 7).blk t).view.emb y) ?_ ?_
  · show win0_7.index t (0 : Fin 2) * 5000 + 1 * (y 0).val = t.val * 5000 + (y 0).val
    rw [e0]; omega
  · show win0_7.index t (1 : Fin 2) * 64 + 1 * (y 1).val = (y 1).val
    rw [e1]; omega

/-! ## The ten blocks cover the array -/

/-- An index of the result is in point t's block iff each coordinate is in the block's range on its axis. -/
theorem mem_blk (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v11).slice (win0_7.rect t)).set ↔ _
  rw [View.set_slice_whole, Rect.mem_set_unit]
  exact Iff.rfl

/-- Row r of the result lies in the block of point r / 5000. -/
theorem cover (i : S50000x64.Idx) : ∃ t : Fin cfg0.N, (cfg0.win 7).flush t = true ∧ i ∈ ((cfg0.win 7).blk t).view.set := by
  have hi0 : (i 0).val < 50000 := (i 0).isLt
  have hi1 : (i 1).val < 64 := (i 1).isLt
  obtain ⟨t, ht⟩ := idx_onto ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

/-- THE RESULT ARRAY after the run is `result`. -/
theorem final (c : Dev nD) : (dats m 0 c).arrAt 7 cfg0.N = result m c :=
  (dats m 0 c).arrAt_eq_of_cover 7 (result m c) (fun t _ => flushed_eq m c t) cover

/-- The run, read: the result array at `result`, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Blocks
-- ==== Proof.KernelArrays.lean ====
/-
  The arrays the launch reads, as functions of the program's arguments.

  Before the launch the program computes, from its arguments: the aggregated array (the edge rows scatter-summed by the
  senders, plus the edge rows scatter-summed by the receivers: `aggOf`), the upper 64 rows and the lower 64 rows of the
  128 × 256 weight matrix, and the two bias vectors laid out as one-row matrices. Read at an entry: row q of the upper
  half is row q of the matrix, row q of the lower half is row 64 + q, and entry (0, k) of a one-row bias is entry k of
  the vector. The aggregated array is kept as one term; nothing about scatter-sums is used.
-/
import proofs.«177618_j65249143161008_1_alg».proof.Proof.Gen.KernelIdeal.Frame
import proofs.«177618_j65249143161008_1_alg».proof.Proof.NodeUpdate
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.StableHlo

namespace Cert.KernelIdeal.Arrays

open Cert.KernelIdeal Cert.KernelIdeal.Gen Idealize.ShloMosaic.ValueIdx Cert.NodeUpdate

variable (m : (ℓ : Loc nD τ sig) → Buf (Elt Ideal) ℓ)

/-- The aggregated array: the edge rows `x1` scatter-summed into 50000 zero rows by the index vector `x2`, plus the
    same by `x3`. -/
def aggOf (x1 : (⟨S800000x64, .f32⟩ : BufTy).Contents (Elt Ideal)) (x2 x3 : (⟨S800000, .i32⟩ : BufTy).Contents (Elt Ideal)) :
    (⟨S50000x64, .f32⟩ : BufTy).Contents (Elt Ideal) :=
  addf
    (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 x2) x1)
    (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 x3) x1)

/-- The launch finds the aggregated array of the edge, sender and receiver arguments. -/
theorem agg_eq (c : Dev nD) :
    (V m c main_v6 : S50000x64.Idx → EReal)
      = aggOf (m ((c : Thread nD τ).loc main_arg1)) (m ((c : Thread nD τ).loc main_arg2)) (m ((c : Thread nD τ).loc main_arg3)) := by
  dsimp only [Gen.V, Gen.hostOps0]; after_results <;> rfl

/-- The upper half of the first weight matrix: rows 0 … 63 of the argument. -/
theorem wt_apply (c : Dev nD) (q : Fin 64) (k : Fin 256) :
    (V m c main_v7 : S64x256.Idx → EReal) (ix2 q k)
      = (m ((c : Thread nD τ).loc main_arg4) : S128x256.Idx → EReal) (ix2 (top q) k) := by
  have e : (V m c main_v7 : S64x256.Idx → EReal)
      = extractStridedSlice S64x256 ![0, 0] (m ((c : Thread nD τ).loc main_arg4)) slices_S128x256_S64x256_0_0 := by
    dsimp only [Gen.V, Gen.hostOps0]; after_results <;> rfl
  rw [e]
  exact extractStridedSlice_apply _ _ _ (ix2 q k) (ix2 (top q) k) (fun a => by
    match a with
    | ⟨0, _⟩ => show q.val = 0 + q.val; omega
    | ⟨1, _⟩ => show k.val = 0 + k.val; omega)

/-- The lower half of the first weight matrix: rows 64 … 127 of the argument. -/
theorem wb_apply (c : Dev nD) (q : Fin 64) (k : Fin 256) :
    (V m c main_v8 : S64x256.Idx → EReal) (ix2 q k)
      = (m ((c : Thread nD τ).loc main_arg4) : S128x256.Idx → EReal) (ix2 (bot q) k) := by
  have e : (V m c main_v8 : S64x256.Idx → EReal)
      = extractStridedSlice S64x256 ![64, 0] (m ((c : Thread nD τ).loc main_arg4)) slices_S128x256_S64x256_64_0 := by
    dsimp only [Gen.V, Gen.hostOps0]; after_results <;> rfl
  rw [e]
  exact extractStridedSlice_apply _ _ _ (ix2 q k) (ix2 (bot q) k) (fun a => by
    match a with
    | ⟨0, _⟩ => show 64 + q.val = 64 + q.val; rfl
    | ⟨1, _⟩ => show k.val = 0 + k.val; omega)

/-- The first bias as a one-row matrix: entry (0, k) is the vector's entry k. -/
theorem b1_apply (c : Dev nD) (k : Fin 256) :
    (V m c main_v9 : S1x256.Idx → EReal) (ix2 0 k) = (m ((c : Thread nD τ).loc main_arg5) : S256.Idx → EReal) (ix1 k) := by
  have e : (V m c main_v9 : S1x256.Idx → EReal)
      = shapeCast S1x256 (m ((c : Thread nD τ).loc main_arg5) : S256.Idx → EReal) shapeCasts_S256_S1x256 := by
    dsimp only [Gen.V, Gen.hostOps0]; after_results <;> rfl
  rw [e]
  refine shapeCast_apply _ _ (ix2 0 k) (ix1 k) ?_
  rw [Shape.rowMajor_val_one, Shape.rowMajor_val_two]
  show k.val = 0 * 256 + k.val
  omega

/-- The second bias as a one-row matrix: entry (0, j) is the vector's entry j. -/
theorem b2_apply (c : Dev nD) (j : Fin 64) :
    (V m c main_v10 : S1x64.Idx → EReal) (ix2 0 j) = (m ((c : Thread nD τ).loc main_arg7) : S64.Idx → EReal) (ix1 j) := by
  have e : (V m c main_v10 : S1x64.Idx → EReal)
      = shapeCast S1x64 (m ((c : Thread nD τ).loc main_arg7) : S64.Idx → EReal) shapeCasts_S64_S1x64 := by
    dsimp only [Gen.V, Gen.hostOps0]; after_results <;> rfl
  rw [e]
  refine shapeCast_apply _ _ (ix2 0 j) (ix1 j) ?_
  rw [Shape.rowMajor_val_one, Shape.rowMajor_val_two]
  show j.val = 0 * 64 + j.val
  omega

end Cert.KernelIdeal.Arrays
-- ==== Proof.KernelResult.lean ====
/-
  The kernel's result array as a function of the program's arguments: the layer of the aggregated array of the edge,
  sender and receiver arguments, the node argument, the upper and lower 64 rows of the first weight matrix, the two
  bias vectors and the second weight matrix.
-/
import proofs.«177618_j65249143161008_1_alg».proof.Proof.KernelValue
import proofs.«177618_j65249143161008_1_alg».proof.Proof.KernelArrays

noncomputable section

open Idealize.ShloMosaic Idealize.ShloMosaic.TcCoe Idealize.SL.Sem

namespace Cert.KernelIdeal.Result

open Cert.KernelIdeal Cert.KernelIdeal.Gen Idealize.ShloMosaic.ValueIdx Cert.NodeUpdate

variable (m : (ℓ : Loc nD τ sig) → Buf (Elt Ideal) ℓ)

/-- The layer of the program's arguments. -/
def ofArgs (x0 : (⟨S50000x64, .f32⟩ : BufTy).Contents (Elt Ideal)) (x1 : (⟨S800000x64, .f32⟩ : BufTy).Contents (Elt Ideal))
    (x2 x3 : (⟨S800000, .i32⟩ : BufTy).Contents (Elt Ideal)) (x4 : (⟨S128x256, .f32⟩ : BufTy).Contents (Elt Ideal))
    (x5 : (⟨S256, .f32⟩ : BufTy).Contents (Elt Ideal)) (x6 : (⟨S256x64, .f32⟩ : BufTy).Contents (Elt Ideal))
    (x7 : (⟨S64, .f32⟩ : BufTy).Contents (Elt Ideal)) : (⟨S50000x64, .f32⟩ : BufTy).Contents (Elt Ideal) :=
  layer (Arrays.aggOf x1 x2 x3) x0 (fun q k => x4 (ix2 (top q) k)) (fun q k => x4 (ix2 (bot q) k))
    (fun k => x5 (ix1 k)) (fun k j => x6 (ix2 k j)) (fun j => x7 (ix1 j))

/-- The kernel's result array is the layer of the arguments as launched. -/
theorem result_eq (c : Dev nD) :
    Blocks.result m c
      = ofArgs (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  show layer (V m c main_v6) (V m c main_arg0) (fun q k => V m c main_v7 (ix2 q k)) (fun q k => V m c main_v8 (ix2 q k))
      (fun k => V m c main_v9 (ix2 0 k)) (fun k j => V m c main_arg6 (ix2 k j)) (fun j => V m c main_v10 (ix2 0 j)) = _
  have hwt : (fun (q : Fin 64) (k : Fin 256) => (V m c main_v7 : S64x256.Idx → EReal) (ix2 q k))
      = fun q k => (m ((c : Thread nD τ).loc main_arg4) : S128x256.Idx → EReal) (ix2 (top q) k) :=
    funext fun q => funext fun k => Arrays.wt_apply m c q k
  have hwb : (fun (q : Fin 64) (k : Fin 256) => (V m c main_v8 : S64x256.Idx → EReal) (ix2 q k))
      = fun q k => (m ((c : Thread nD τ).loc main_arg4) : S128x256.Idx → EReal) (ix2 (bot q) k) :=
    funext fun q => funext fun k => Arrays.wb_apply m c q k
  have hb1 : (fun (k : Fin 256) => (V m c main_v9 : S1x256.Idx → EReal) (ix2 0 k))
      = fun k => (m ((c : Thread nD τ).loc main_arg5) : S256.Idx → EReal) (ix1 k) :=
    funext fun k => Arrays.b1_apply m c k
  have hb2 : (fun (j : Fin 64) => (V m c main_v10 : S1x64.Idx → EReal) (ix2 0 j))
      = fun j => (m ((c : Thread nD τ).loc main_arg7) : S64.Idx → EReal) (ix1 j) :=
    funext fun j => Arrays.b2_apply m c j
  rw [hwt, hwb, hb1, hb2, Arrays.agg_eq, V_main_arg0, V_main_arg6]
  rfl

end Cert.KernelIdeal.Result
-- ==== Proof.ReferenceLayer.lean ====
/-
  The reference computes the layer: its result array is `layer` of its aggregated array, the node array, the two
  halves of the first weight matrix, the biases and the second weight matrix.

  The reference joins each node's aggregated row and own row into one row of 128 entries: position q of the upper
  half holds the aggregated entry q, position 64 + q of the lower half the node's own entry q. Its product with the
  128 × 256 matrix, read at (node r, unit k), is a sum over 128 positions, which splits into the sum over the upper
  half — aggregated entries against rows 0 … 63 of the matrix — plus the sum over the lower half — own entries against
  rows 64 … 127. The bias vectors are repeated along the rows, the clip is the maximum with a zero array, and the second
  product is a sum over the 256 hidden units. Entry by entry that is `updated`. The aggregated array itself (two
  scatter-sums of the edge rows, added) is carried as one array and never opened.
-/
import proofs.«177618_j65249143161008_1_alg».proof.Proof.Gen.ReferenceIdeal.Read
import proofs.«177618_j65249143161008_1_alg».proof.Proof.NodeUpdate
import Idealize.ShloMosaic.Lib.Pipeline.Value
import Idealize.ShloMosaic.Lib.ValueIdx
import Idealize.ShloMosaic.PureOps.Ideal.Laws

noncomputable section

open scoped BigOperators

namespace Cert.ReferenceIdeal.Layer

open Cert.ReferenceIdeal Cert.ReferenceIdeal.Gen Cert.ReferenceIdeal.Read Idealize.ShloMosaic Idealize.ShloMosaic.ValueIdx
  Cert.NodeUpdate

/-! ## The joined row -/

/-- Position q of the joined row's upper half is the first array's entry q. -/
theorem joined_top (u v : Vec Ideal S50000x64 .f32) (r : Fin 50000) (q : Fin 64) :
    concatenate S50000x128 1 [⟨S50000x64, u⟩, ⟨S50000x64, v⟩] concatenates_S50000x64_S50000x64_S50000x128_d1 (ix2 r (top q))
      = u (ix2 r q) :=
  concatenate_pair_apply_left (1 : Fin 2) u v concatenates_S50000x64_S50000x64_S50000x128_d1 (ix2 r (top q)) rfl (ix2 r q)
    (fun b => by
      match b with
      | ⟨0, _⟩ => rfl
      | ⟨1, _⟩ => rfl)

/-- Position 64 + q of the joined row's lower half is the second array's entry q. -/
theorem joined_bot (u v : Vec Ideal S50000x64 .f32) (r : Fin 50000) (q : Fin 64) :
    concatenate S50000x128 1 [⟨S50000x64, u⟩, ⟨S50000x64, v⟩] concatenates_S50000x64_S50000x64_S50000x128_d1 (ix2 r (bot q))
      = v (ix2 r q) :=
  concatenate_pair_apply_right (1 : Fin 2) u v concatenates_S50000x64_S50000x64_S50000x128_d1 (ix2 r (bot q)) rfl rfl (ix2 r q)
    (fun b hb => by
      match b, hb with
      | ⟨0, _⟩, _ => rfl
      | ⟨1, _⟩, hb => exact absurd rfl hb)
    (by show q.val + 64 = 64 + q.val; omega)

/-- The joined array of the reference at the two halves. -/
theorem val_v7_top (x0 : Vec Ideal S50000x64 .f32) (x1 : Vec Ideal S800000x64 .f32) (x2 x3 : Vec Ideal S800000 .i32)
    (r : Fin 50000) (q : Fin 64) :
    val_main_v7 (F := Ideal) x0 x1 x2 x3 (ix2 r (top q)) = val_main_v6 (F := Ideal) x1 x2 x3 (ix2 r q) := by
  unfold val_main_v7
  generalize val_main_v6 (F := Ideal) x1 x2 x3 = u
  exact joined_top u x0 r q

theorem val_v7_bot (x0 : Vec Ideal S50000x64 .f32) (x1 : Vec Ideal S800000x64 .f32) (x2 x3 : Vec Ideal S800000 .i32)
    (r : Fin 50000) (q : Fin 64) :
    val_main_v7 (F := Ideal) x0 x1 x2 x3 (ix2 r (bot q)) = x0 (ix2 r q) := by
  unfold val_main_v7
  generalize val_main_v6 (F := Ideal) x1 x2 x3 = u
  exact joined_bot u x0 r q

/-! ## The indices the generated read lemmas name, as coordinates -/

theorem lidx8 (r : Fin 50000) (k : Fin 256) (q : Fin 128) : lidx_main_v8 (ix2 r k) q = ix2 r q :=
  funext fun a => Fin.ext (by match a with | ⟨0, _⟩ => rfl | ⟨1, _⟩ => rfl)
theorem ridx8 (r : Fin 50000) (k : Fin 256) (q : Fin 128) : ridx_main_v8 (ix2 r k) q = ix2 q k :=
  funext fun a => Fin.ext (by match a with | ⟨0, _⟩ => rfl | ⟨1, _⟩ => rfl)
theorem idx9_10 (r : Fin 50000) (k : Fin 256) : idx_main_v9 (idx_main_v10 (ix2 r k)) = ix1 k :=
  funext fun a => Fin.ext (by match a with | ⟨0, _⟩ => rfl)
theorem lidx13 (r : Fin 50000) (j : Fin 64) (k : Fin 256) : lidx_main_v13 (ix2 r j) k = ix2 r k :=
  funext fun a => Fin.ext (by match a with | ⟨0, _⟩ => rfl | ⟨1, _⟩ => rfl)
theorem ridx13 (r : Fin 50000) (j : Fin 64) (k : Fin 256) : ridx_main_v13 (ix2 r j) k = ix2 k j :=
  funext fun a => Fin.ext (by match a with | ⟨0, _⟩ => rfl | ⟨1, _⟩ => rfl)
theorem idx14_15 (r : Fin 50000) (j : Fin 64) : idx_main_v14 (idx_main_v15 (ix2 r j)) = ix1 j :=
  funext fun a => Fin.ext (by match a with | ⟨0, _⟩ => rfl)

/-! ## The hidden layer and the result -/

/-- The reference's clipped hidden array at (node r, unit k) is `hidden` of the node's aggregated row and own row
    against the upper and lower 64 rows of the first weight matrix. -/
theorem hidden_eq (x0 : Vec Ideal S50000x64 .f32) (x1 : Vec Ideal S800000x64 .f32) (x2 x3 : Vec Ideal S800000 .i32)
    (x4 : Vec Ideal S128x256 .f32) (x5 : Vec Ideal S256 .f32) (r : Fin 50000) (k : Fin 256) :
    val_main_v12 (F := Ideal) x0 x1 x2 x3 x4 x5 (ix2 r k)
      = hidden (fun q => val_main_v6 (F := Ideal) x1 x2 x3 (ix2 r q)) (fun q => x0 (ix2 r q))
          (fun q k => x4 (ix2 (top q) k)) (fun q k => x4 (ix2 (bot q) k)) (fun k => x5 (ix1 k)) k := by
  rw [val_main_v12_apply, val_main_v11_apply, val_main_v8_apply, val_main_v10_apply, val_main_v9_apply,
    val_main_call0_v0_apply, val_main_call0_cst_apply, idx9_10, sum_halves]
  simp only [lidx8, ridx8, val_v7_top, val_v7_bot]
  show max ((_ + _) + _) (Ideal.ofBits .f32 0x00000000#32) = _
  rw [Ideal.ofBits_zero_f32]
  rfl

/-- THE REFERENCE'S RESULT is the layer of its aggregated array and its arguments. -/
theorem result_eq (x0 : Vec Ideal S50000x64 .f32) (x1 : Vec Ideal S800000x64 .f32) (x2 x3 : Vec Ideal S800000 .i32)
    (x4 : Vec Ideal S128x256 .f32) (x5 : Vec Ideal S256 .f32) (x6 : Vec Ideal S256x64 .f32) (x7 : Vec Ideal S64 .f32) :
    val_main_v16 (F := Ideal) x0 x1 x2 x3 x4 x5 x6 x7
      = layer (val_main_v6 (F := Ideal) x1 x2 x3) x0 (fun q k => x4 (ix2 (top q) k)) (fun q k => x4 (ix2 (bot q) k))
          (fun k => x5 (ix1 k)) (fun k j => x6 (ix2 k j)) (fun j => x7 (ix1 j)) := by
  funext i
  obtain ⟨r, j, rfl⟩ : ∃ (r : Fin 50000) (j : Fin 64), i = ix2 r j := ⟨i 0, i 1, eq_ix2 i⟩
  rw [val_main_v16_apply, val_main_v13_apply, val_main_v15_apply, val_main_v14_apply, idx14_15, layer_apply]
  simp only [lidx13, ridx13, hidden_eq]
  rfl

end Cert.ReferenceIdeal.Layer
-- ==== Proof.lean ====
/-
  The message-passing node update: the kernel against its reference, over the extended reals.

  Both programs first aggregate the edge rows into the nodes (a scatter-sum by the senders plus a scatter-sum by the
  receivers), by the same operations on the same arguments: that array is one and the same term on both sides and is
  never opened. The reference then joins each node's aggregated row with its own row into 128 entries, multiplies by
  the 128 × 256 weight matrix, adds the bias, clips at zero, multiplies by the 256 × 64 matrix and adds the second
  bias. The kernel never builds the joined row: it multiplies the aggregated row by the upper 64 rows of the matrix and
  the own row by the lower 64 rows and adds the two products, block of 5000 nodes by block. A sum over 128 positions
  is the sum over the first 64 plus the sum over the last 64, so the two hidden rows agree entry by entry, and with
  them the outputs; changes of number format are the identity on exact values. No finiteness is needed: only sums are
  regrouped.

  The three frames: the kernel's two are the generated frame runs; the reference's is its generated run with the result
  dropped. Nothing was rewritten between the kernel and its idealization.
-/
import proofs.«177618_j65249143161008_1_alg».proof.Defs
import proofs.«177618_j65249143161008_1_alg».proof.Proof.Gen.Kernel
import proofs.«177618_j65249143161008_1_alg».proof.Proof.Gen.Kernel.Skeleton
import proofs.«177618_j65249143161008_1_alg».proof.Proof.Gen.Kernel.Launch
import proofs.«177618_j65249143161008_1_alg».proof.Proof.Gen.Kernel.Points
import proofs.«177618_j65249143161008_1_alg».proof.Proof.Gen.Kernel.Frame
import proofs.«177618_j65249143161008_1_alg».proof.Proof.Gen.KernelIdeal
import proofs.«177618_j65249143161008_1_alg».proof.Proof.Gen.KernelIdeal.Skeleton
import proofs.«177618_j65249143161008_1_alg».proof.Proof.Gen.KernelIdeal.Launch
import proofs.«177618_j65249143161008_1_alg».proof.Proof.Gen.KernelIdeal.Points
import proofs.«177618_j65249143161008_1_alg».proof.Proof.Gen.KernelIdeal.Frame
import proofs.«177618_j65249143161008_1_alg».proof.Proof.Gen.ReferenceIdeal
import proofs.«177618_j65249143161008_1_alg».proof.Proof.Gen.Pre_finite_inputs
import proofs.«177618_j65249143161008_1_alg».proof.Proof.Gen.KernelIdeal.Value
import proofs.«177618_j65249143161008_1_alg».proof.Proof.Gen.ReferenceIdeal.Run
import proofs.«177618_j65249143161008_1_alg».proof.Proof.Gen.ReferenceIdeal.Read
import proofs.«177618_j65249143161008_1_alg».proof.Proof.KernelResult
import proofs.«177618_j65249143161008_1_alg».proof.Proof.ReferenceLayer
import Idealize.ShloMosaic.Adequacy
import Idealize.ShloMosaic.Init

noncomputable section

namespace Cert.Proof

open Idealize.ShloMosaic Idealize.ShloMosaic.TcCoe Idealize.SL.Sem

/-! ## The two sides are one function of the arguments -/

/-- Both programs aggregate the edge rows by the same operations: the reference's aggregated array is the kernel's. -/
theorem agg_same (x1 : (⟨Cert.ReferenceIdeal.S800000x64, .f32⟩ : BufTy).Contents (Elt Ideal))
    (x2 x3 : (⟨Cert.ReferenceIdeal.S800000, .i32⟩ : BufTy).Contents (Elt Ideal)) :
    Cert.ReferenceIdeal.Read.val_main_v6 (F := Ideal) x1 x2 x3 = Cert.KernelIdeal.Arrays.aggOf x1 x2 x3 := rfl

/-- The reference's result, as a function of the arguments, is the kernel's. -/
theorem same_layer (x0 : (⟨Cert.ReferenceIdeal.S50000x64, .f32⟩ : BufTy).Contents (Elt Ideal))
    (x1 : (⟨Cert.ReferenceIdeal.S800000x64, .f32⟩ : BufTy).Contents (Elt Ideal))
    (x2 x3 : (⟨Cert.ReferenceIdeal.S800000, .i32⟩ : BufTy).Contents (Elt Ideal))
    (x4 : (⟨Cert.ReferenceIdeal.S128x256, .f32⟩ : BufTy).Contents (Elt Ideal))
    (x5 : (⟨Cert.ReferenceIdeal.S256, .f32⟩ : BufTy).Contents (Elt Ideal))
    (x6 : (⟨Cert.ReferenceIdeal.S256x64, .f32⟩ : BufTy).Contents (Elt Ideal))
    (x7 : (⟨Cert.ReferenceIdeal.S64, .f32⟩ : BufTy).Contents (Elt Ideal)) :
    Cert.ReferenceIdeal.Read.val_main_v16 (F := Ideal) x0 x1 x2 x3 x4 x5 x6 x7
      = Cert.KernelIdeal.Result.ofArgs x0 x1 x2 x3 x4 x5 x6 x7 := by
  rw [Cert.ReferenceIdeal.Layer.result_eq, agg_same]
  rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments, both idealized programs end with the layer of those arguments in
    their result arrays. -/
theorem algebraic : Cert.algebraic_KernelIdeal_ReferenceIdeal := by
  intro m ρ m' ρ' _ hagree
  refine ⟨fun c => Cert.KernelIdeal.Result.ofArgs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Result.result_eq m c), (h c).2⟩)
      (Cert.KernelIdeal.Blocks.run m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7⟩ := hagree c
    rw [Cert.ReferenceIdeal.Read.val_main_v16_eq, same_layer, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
